-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S400x10000 : Shape := ⟨2, ![400, 10000]⟩
abbrev S400x128 : Shape := ⟨2, ![400, 128]⟩

abbrev nBuf : Space → Nat
  | .hbm => 4
  | .vmem => 6
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S400x128, .f32⟩
  | .local _ .vmem, ⟨5, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S400x128_S400x128_0_0 : ∀ a, (![0, 0] : Fin 2 → Nat) a + S400x128.size a ≤ S400x128.size a
  h_S400x128 : 0 < S400x128.numel
  dot_S400x10000_S10000x128_S400x128_1_0_0_1_n_n_wf : DotDims.WF S400x10000 S10000x128 S400x128 [1] [0] [0] [1] [] []
  dot_S400x128_S128x128_S400x128_1_1_0_0_n_n_wf : DotDims.WF S400x128 S128x128 S400x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .f32 = 32 ∨ (Rect.block (s := S10000x128) S400x128.size (cc0_transform_3 i) (hinb0_3 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_1_0_0_n_n : DotDims S400x128 S128x128 S400x128 where
  lhsContracting := [1]
  rhsContracting := [1]
  lhsNonContracting := [0]
  rhsNonContracting := [0]
  lhsBatch := []
  rhsBatch := []
  wf := dot_S400x128_S128x128_S400x128_1_1_0_0_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S400x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S10000x256 : Shape := ⟨2, ![10000, 256]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S10000x128, .f32⟩
  | .hbm, ⟨5, _⟩ => ⟨S10000x256, .f32⟩
  | .hbm, ⟨6, _⟩ => ⟨S10000x128, .f32⟩
  | .hbm, ⟨7, _⟩ => ⟨S10000x128, .f32⟩
  | .hbm, ⟨8, _⟩ => ⟨S10000x128, .f32⟩
  | .hbm, ⟨9, _⟩ => ⟨S10000x256, .f32⟩
  | .hbm, ⟨10, _⟩ => ⟨S_, .f32⟩
  | .hbm, ⟨11, _⟩ => ⟨S10000x256, .f32⟩
  | .hbm, ⟨12, _⟩ => ⟨S10000x256, .f32⟩
  | .hbm, ⟨13, _⟩ => ⟨S10000x256, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S10000x256, .f32⟩
  | .hbm, ⟨18, _⟩ => ⟨S_, .f32⟩
  | .hbm, ⟨19, _⟩ => ⟨S10000x256, .f32⟩
  | .hbm, ⟨20, _⟩ => ⟨S10000x256, .f32⟩
  | .hbm, ⟨21, _⟩ => ⟨S10000x256, .f32⟩
  | .hbm, ⟨22, _⟩ => ⟨S10000x128, .f32⟩
  | .hbm, ⟨23, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]

class Facts₀ : Prop where
  transposes_S128x128_S128x128_1_0 : S128x128.Transposes [1, 0] S128x128
  concatenates_S10000x128_S10000x128_S10000x256_d1 : Shape.Concatenates [S10000x128, S10000x128] S10000x256 1
  slices_S10000x256_S10000x128_0_0 : S10000x256.Slices ![0, 0] S10000x128
  slices_S10000x256_S10000x128_0_128 : S10000x256.Slices ![0, 128] S10000x128
  bcast_S_S10000x256 : S_.BroadcastsInDim S10000x256 (![] : Fin 0 → Fin S10000x256.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.EulerLaw.lean ====
/-
  The algebra that makes the two programs one function of their arguments.

  Write a row of the adjacency as `a k`, the features as `x k l`, and row `j` of the weight as `w l` (so that
  `v k = ∑ l, x k l * w l` is entry `(k, j)` of `x · Wᵀ`).  Two explicit Euler half-steps of the flow
  `d[q, p]/dt = [p, -q]` from `[q, p] = [x, v]` leave, in the `q` half, `(x + ½ v) + ½ (v + ½ (-x))`, which over the
  reals is `¾ x + v`.  Aggregating that over `k` with the weights `a k` and exchanging the two finite sums gives
  `¾ ∑ k, a k * x k j + ∑ l, (∑ k, a k * x k l) * w l`: the aggregation first, the small product afterwards.
  Distributivity is used throughout, so the extended-real statement asks every entry to be a real number.
-/
import Idealize.ShloMosaic.PureOps.Ideal

noncomputable section

namespace Cert.EulerLaw

open Idealize.ShloMosaic

/-- The float pattern of `0.75` denotes the real `3/4`. -/
theorem ofBits_three_quarters : Ideal.ofBits .f32 0x3F400000#32 = ((3 / 4 : ℝ) : EReal) := by
  simp [Ideal.ofBits, Ideal.ieee, -EReal.coe_mul]; norm_num

/-- The float pattern of `0.5` denotes the real `1/2`. -/
theorem ofBits_half : Ideal.ofBits .f32 0x3F000000#32 = ((1 / 2 : ℝ) : EReal) := by
  simp [Ideal.ofBits, Ideal.ieee, -EReal.coe_mul]; norm_num

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: the aggregated double Euler step is the aggregation followed by `¾ · + · Wᵀ`. -/
theorem real_law {K L : Type*} [Fintype K] [Fintype L] (A : K → ℝ) (X : K → L → ℝ) (W : L → ℝ) (j : L) :
    (3 / 4 : ℝ) * (∑ k, A k * X k j) + ∑ l, (∑ k, A k * X k l) * W l
      = ∑ k, A k * ((X k j + (1 / 2 : ℝ) * (∑ l, X k l * W l))
          + (1 / 2 : ℝ) * ((∑ l, X k l * W l) + (1 / 2 : ℝ) * (-(X k j)))) := by
  have step : ∀ k, A k * ((X k j + (1 / 2 : ℝ) * (∑ l, X k l * W l))
        + (1 / 2 : ℝ) * ((∑ l, X k l * W l) + (1 / 2 : ℝ) * (-(X k j))))
      = (3 / 4 : ℝ) * (A k * X k j) + ∑ l, (A k * X k l) * W l := by
    intro k
    have hv : ∑ l, (A k * X k l) * W l = A k * ∑ l, X k l * W l := by
      rw [Finset.mul_sum]; exact Finset.sum_congr rfl fun l _ => mul_assoc _ _ _
    rw [hv]; ring
  have swap : ∑ k, ∑ l, (A k * X k l) * W l = ∑ l, (∑ k, A k * X k l) * W l := by
    rw [Finset.sum_comm]; exact Finset.sum_congr rfl fun l _ => (Finset.sum_mul _ _ _).symm
  rw [Finset.sum_congr rfl fun k _ => step k, Finset.sum_add_distrib, ← Finset.mul_sum, swap]

/-- The same over the extended reals, for entries that are real numbers. -/
theorem ereal_law {K L : Type*} [Fintype K] [Fintype L] (a : K → EReal) (x : K → L → EReal) (w : L → EReal) (j : L)
    (ha : ∀ k, ∃ r : ℝ, a k = r) (hx : ∀ k l, ∃ r : ℝ, x k l = r) (hw : ∀ l, ∃ r : ℝ, w l = r) :
    ((3 / 4 : ℝ) : EReal) * (∑ k, a k * x k j) + ∑ l, (∑ k, a k * x k l) * w l
      = ∑ k, a k * ((x k j + ((1 / 2 : ℝ) : EReal) * (∑ l, x k l * w l))
          + ((1 / 2 : ℝ) : EReal) * ((∑ l, x k l * w l) + ((1 / 2 : ℝ) : EReal) * (-(x k j)))) := by
  choose A hA using ha
  choose X hX using hx
  choose W hW using hw
  obtain rfl : a = fun k => ((A k : ℝ) : EReal) := funext hA
  obtain rfl : x = fun k l => ((X k l : ℝ) : EReal) := funext fun k => funext fun l => hX k l
  obtain rfl : w = fun l => ((W l : ℝ) : EReal) := funext hW
  simp only [← EReal.coe_mul, ← EReal.coe_add, ← EReal.coe_neg, ← coe_sum]
  exact congrArg _ (real_law A X W j)

end Cert.EulerLaw

end
-- ==== Proof.FiniteArgs.lean ====
/-
  What the precondition says of the three argument arrays: every entry is a real number.

  The precondition is the conjunction, array by array, of "every entry's absolute value is below `+∞`".  On the
  extended reals `max v (-v) < ⊤` rules out both infinities, so each entry is the coercion of a real — the form in
  which the distributive law of the value proof can use it.
-/
import proofs.«175777_g81724637708389_cont_9to1_m_1123_16_alg».proof.Pre_finite_inputs
import Idealize.ShloMosaic.PureOps.Ideal
import Idealize.ShloMosaic.Lib.ReduceAll
import Idealize.ShloMosaic.Lib.Affine
import Idealize.ShloMosaic.Lib.ValueIdx

noncomputable section

namespace Cert.FiniteArgs

open Idealize.ShloMosaic Cert.Pre_finite_inputs

/-- An extended real whose absolute value compares below the pattern of `+∞` is a real number. -/
theorem real_of_abs_lt_inf (v : Ideal .f32)
    (h : FloatOps.cmpf .olt (FloatOps.hostAbsf v) (FloatOps.ofBits (F := Ideal) .f32 0x7F800000#32) = 1#1) :
    ∃ r : ℝ, (v : EReal) = r := by
  have htop : Ideal.ofBits .f32 0x7F800000#32 = ⊤ := by simp [Ideal.ofBits, Ideal.ieee]
  change Ideal.cmp .olt (max (v : EReal) (-(v : EReal))) (Ideal.ofBits .f32 0x7F800000#32) = 1#1 at h
  rw [htop] at h
  unfold Ideal.cmp at h
  induction v using EReal.rec with
  | bot => simp at h
  | coe r => exact ⟨r, rfl⟩
  | top => simp at h

instance : Subsingleton S_.Idx := ⟨fun a b => funext fun d => d.elim0⟩

/-- Under the precondition every entry of the features, of the adjacency and of the weight is a real number. -/
theorem real_entries [Facts] (x : FVec Ideal S10000x128 .f32) (a : FVec Ideal S10000x10000 .f32) (w : FVec Ideal S128x128 .f32)
    (h : fn (F := Ideal) x a w = fun _ => 1#1) :
    (∀ i, ∃ r : ℝ, (x i : EReal) = r) ∧ (∀ i, ∃ r : ℝ, (a i : EReal) = r) ∧ (∀ i, ∃ r : ℝ, (w i : EReal) = r) := by
  have h0 := congrFun h ValueIdx.ix0
  dsimp only [fn] at h0
  obtain ⟨h01, h2⟩ := IntOp.andi_eq_one.1 h0
  obtain ⟨hx, ha⟩ := IntOp.andi_eq_one.1 h01
  refine ⟨fun i => ?_, fun i => ?_, fun i => ?_⟩
  · exact real_of_abs_lt_inf (x i) (Host.reduce_andi_all _ _ _ _ _ hx i)
  · exact real_of_abs_lt_inf (a i) (Host.reduce_andi_all _ _ _ _ _ ha i)
  · exact real_of_abs_lt_inf (w i) (Host.reduce_andi_all _ _ _ _ _ h2 i)

end Cert.FiniteArgs

end
-- ==== Proof.RefValue.lean ====
/-
  The reference's result, entry by entry, at the ideal values.

  The reference forms `v = x · Wᵀ`, lays `[x, v]` side by side in a 256-wide array, and takes two explicit Euler
  half-steps of `d[q, p]/dt = [p, -q]`, each of which swaps the two 128-wide halves (negating the one that came from
  `q`), scales by `½` and adds.  Reading a 256-wide array at column `c` of its left half or of its right half picks
  the corresponding 128-wide piece, so after both steps the left half at `(k, c)` is
  `(x + ½ v) + ½ (v + ½ (-x))` at `(k, c)`, with `v (k, c) = ∑ l, x (k, l) * W (c, l)`.  The last operation
  aggregates those rows with the adjacency: `∑ k, adj (r, k) * …`.
-/
import proofs.«175777_g81724637708389_cont_9to1_m_1123_16_alg».proof.Proof.Gen.ReferenceIdeal.Read
import proofs.«175777_g81724637708389_cont_9to1_m_1123_16_alg».proof.Proof.EulerLaw
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-- Column `c` of the left half of a 256-wide row. -/
abbrev lo (c : Fin 128) : Fin 256 := ⟨c.val, by have := c.isLt; omega⟩
/-- Column `c` of the right half of a 256-wide row. -/
abbrev hi (c : Fin 128) : Fin 256 := ⟨128 + c.val, by have := c.isLt; omega⟩

section AnyInstance

variable {F : FTy → Type} [FloatOps F]

/-- Two 128-wide arrays laid side by side, read in the left half: the first array. -/
theorem cat_lo (a b : S10000x128.Idx → Elt F .f32) (r : Fin 10000) (c : Fin 128) :
    concatenate S10000x256 1 [⟨S10000x128, a⟩, ⟨S10000x128, b⟩] concatenates_S10000x128_S10000x128_S10000x256_d1 (ix2 r (lo c))
      = a (ix2 r c) :=
  concatenate_pair_apply_left 1 a b _ (ix2 r (lo c)) rfl (ix2 r c)
    (fun d => match d with | ⟨0, _⟩ => rfl | ⟨1, _⟩ => rfl)

/-- Two 128-wide arrays laid side by side, read in the right half: the second array. -/
theorem cat_hi (a b : S10000x128.Idx → Elt F .f32) (r : Fin 10000) (c : Fin 128) :
    concatenate S10000x256 1 [⟨S10000x128, a⟩, ⟨S10000x128, b⟩] concatenates_S10000x128_S10000x128_S10000x256_d1 (ix2 r (hi c))
      = b (ix2 r c) :=
  concatenate_pair_apply_right 1 a b _ (ix2 r (hi c)) rfl rfl (ix2 r c)
    (fun d hd => match d, hd with | ⟨0, _⟩, _ => rfl | ⟨1, _⟩, hd => absurd rfl hd)
    (by show c.val + 128 = 128 + c.val; omega)

variable (x0 : (⟨S10000x128, .f32⟩ : BufTy).Contents (Elt F)) (x2 : (⟨S128x128, .f32⟩ : BufTy).Contents (Elt F))

/-! ### The slices' index maps at explicit coordinates -/

theorem idx3_lo (r : Fin 10000) (c : Fin 128) : idx_main_v3 (ix2 r c) = ix2 r (lo c) :=
  funext fun a => Fin.ext (by match a with | ⟨0, _⟩ => rfl | ⟨1, _⟩ => rfl)
theorem idx4_hi (r : Fin 10000) (c : Fin 128) : idx_main_v4 (ix2 r c) = ix2 r (hi c) :=
  funext fun a => Fin.ext (by match a with | ⟨0, _⟩ => rfl | ⟨1, _⟩ => rfl)
theorem idx10_lo (r : Fin 10000) (c : Fin 128) : idx_main_v10 (ix2 r c) = ix2 r (lo c) :=
  funext fun a => Fin.ext (by match a with | ⟨0, _⟩ => rfl | ⟨1, _⟩ => rfl)
theorem idx11_hi (r : Fin 10000) (c : Fin 128) : idx_main_v11 (ix2 r c) = ix2 r (hi c) :=
  funext fun a => Fin.ext (by match a with | ⟨0, _⟩ => rfl | ⟨1, _⟩ => rfl)
theorem idx17_lo (r : Fin 10000) (c : Fin 128) : idx_main_v17 (ix2 r c) = ix2 r (lo c) :=
  funext fun a => Fin.ext (by match a with | ⟨0, _⟩ => rfl | ⟨1, _⟩ => rfl)

/-! ### The three side-by-side arrays, half by half -/

/-- `[x, v]`: the left half is `x`. -/
theorem v2_lo (r : Fin 10000) (c : Fin 128) : val_main_v2 (F := F) x0 x2 (ix2 r (lo c)) = x0 (ix2 r c) := by
  unfold val_main_v2; exact cat_lo _ _ r c
/-- `[x, v]`: the right half is `v`. -/
theorem v2_hi (r : Fin 10000) (c : Fin 128) :
    val_main_v2 (F := F) x0 x2 (ix2 r (hi c)) = val_main_v1 (F := F) x0 x2 (ix2 r c) := by
  unfold val_main_v2; exact cat_hi _ _ r c
/-- The first step's swapped pair `[p, -q]`: the left half is the right half of `[x, v]`. -/
theorem v6_lo (r : Fin 10000) (c : Fin 128) :
    val_main_v6 (F := F) x0 x2 (ix2 r (lo c)) = val_main_v4 (F := F) x0 x2 (ix2 r c) := by
  unfold val_main_v6; exact cat_lo _ _ r c
/-- … and the right half is the negated left half of `[x, v]`. -/
theorem v6_hi (r : Fin 10000) (c : Fin 128) :
    val_main_v6 (F := F) x0 x2 (ix2 r (hi c)) = val_main_v5 (F := F) x0 x2 (ix2 r c) := by
  unfold val_main_v6; exact cat_hi _ _ r c
/-- The second step's swapped pair: only its left half is kept, the right half of the state after one step. -/
theorem v13_lo (r : Fin 10000) (c : Fin 128) :
    val_main_v13 (F := F) x0 x2 (ix2 r (lo c)) = val_main_v11 (F := F) x0 x2 (ix2 r c) := by
  unfold val_main_v13; exact cat_lo _ _ r c

/-! ### The state after one step, and the kept half after two -/

/-- After one half-step the `q` half is `x + ½ v`. -/
theorem v9_lo (r : Fin 10000) (c : Fin 128) :
    val_main_v9 (F := F) x0 x2 (ix2 r (lo c))
      = FloatOps.addf (x0 (ix2 r c)) (FloatOps.mulf (FloatOps.ofBits .f32 0x3F000000#32) (val_main_v1 (F := F) x0 x2 (ix2 r c))) := by
  rw [val_main_v9_apply, v2_lo, val_main_v8_apply, val_main_v7_apply, val_main_cst_apply, v6_lo, val_main_v4_apply, idx4_hi,
    v2_hi]

/-- After one half-step the `p` half is `v + ½ (-x)`. -/
theorem v9_hi (r : Fin 10000) (c : Fin 128) :
    val_main_v9 (F := F) x0 x2 (ix2 r (hi c))
      = FloatOps.addf (val_main_v1 (F := F) x0 x2 (ix2 r c))
          (FloatOps.mulf (FloatOps.ofBits .f32 0x3F000000#32) (FloatOps.hostNegf (x0 (ix2 r c)))) := by
  rw [val_main_v9_apply, v2_hi, val_main_v8_apply, val_main_v7_apply, val_main_cst_apply, v6_hi, val_main_v5_apply,
    val_main_v3_apply, idx3_lo, v2_lo]

/-- After two half-steps the kept `q` half is the state's `q` half plus `½` of its `p` half. -/
theorem v17_at (r : Fin 10000) (c : Fin 128) :
    val_main_v17 (F := F) x0 x2 (ix2 r c)
      = FloatOps.addf (val_main_v9 (F := F) x0 x2 (ix2 r (lo c)))
          (FloatOps.mulf (FloatOps.ofBits .f32 0x3F000000#32) (val_main_v9 (F := F) x0 x2 (ix2 r (hi c)))) := by
  rw [val_main_v17_apply, idx17_lo, val_main_v16_apply, val_main_v15_apply, val_main_v14_apply, val_main_cst_0_apply,
    v13_lo, val_main_v11_apply, idx11_hi]

end AnyInstance

/-! ### At the ideal values -/

variable (x0 : (⟨S10000x128, .f32⟩ : BufTy).Contents (Elt Ideal)) (x1 : (⟨S10000x10000, .f32⟩ : BufTy).Contents (Elt Ideal))
  (x2 : (⟨S128x128, .f32⟩ : BufTy).Contents (Elt Ideal))

/-- `v = x · Wᵀ` at `(r, c)`: the sum over the features of `x (r, l) * W (c, l)`. -/
theorem v1_at (r : Fin 10000) (c : Fin 128) :
    val_main_v1 (F := Ideal) x0 x2 (ix2 r c) = ∑ l : Fin 128, x0 (ix2 r l) * x2 (ix2 c l) := by
  rw [val_main_v1_apply]
  refine Finset.sum_congr rfl fun l _ => ?_
  rw [val_main_v0_apply]
  have e1 : lidx_main_v1 (ix2 r c) l = ix2 r l :=
    funext fun a => Fin.ext (by match a with | ⟨0, _⟩ => rfl | ⟨1, _⟩ => rfl)
  have e2 : idx_main_v0 (ridx_main_v1 (ix2 r c) l) = ix2 c l :=
    funext fun a => Fin.ext (by match a with | ⟨0, _⟩ => rfl | ⟨1, _⟩ => rfl)
  rw [e1, e2]

/-- The reference's result at `(r, c)`: the adjacency row `r` aggregating the twice-stepped `q` half. -/
theorem result_at (r : Fin 10000) (c : Fin 128) :
    val_main_v18 (F := Ideal) x0 x1 x2 (ix2 r c)
      = ∑ k : Fin 10000, x1 (ix2 r k) *
          ((x0 (ix2 k c) + ((1 / 2 : ℝ) : EReal) * (∑ l : Fin 128, x0 (ix2 k l) * x2 (ix2 c l)))
            + ((1 / 2 : ℝ) : EReal) * ((∑ l : Fin 128, x0 (ix2 k l) * x2 (ix2 c l))
                + ((1 / 2 : ℝ) : EReal) * (-(x0 (ix2 k c))))) := by
  rw [val_main_v18_apply]
  refine Finset.sum_congr rfl fun k _ => ?_
  have e1 : lidx_main_v18 (ix2 r c) k = ix2 r k :=
    funext fun a => Fin.ext (by match a with | ⟨0, _⟩ => rfl | ⟨1, _⟩ => rfl)
  have e2 : ridx_main_v18 (ix2 r c) k = ix2 k c :=
    funext fun a => Fin.ext (by match a with | ⟨0, _⟩ => rfl | ⟨1, _⟩ => rfl)
  rw [e1, e2, v17_at, v9_lo, v9_hi, v1_at]
  simp only [Ideal.addf_def, Ideal.mulf_def, Ideal.hostNegf_def, Ideal.negf_def, Ideal.ofBits_def, Cert.EulerLaw.ofBits_half]

end Cert.ReferenceIdeal.RefValue

end
-- ==== Proof.KernelPayload.lean ====
/-
  What one grid step of the kernel stores, entry by entry, at the ideal values.

  A step holds 400 rows of the adjacency (`a`), all of the features (`x`) and all of the weight (`w`).  It first
  aggregates, `y (p, l) = ∑ k, a (p, k) * x (k, l)` (the narrowing of both operands to bf16 is the identity on ideal
  values, and the accumulator is zero), then stores `¾ y + y · Wᵀ`, whose entry `(p, q)` is
  `¾ y (p, q) + ∑ l, y (p, l) * w (q, l)`: the second product contracts the feature axis of `y` with the SECOND
  axis of the weight.
-/
import proofs.«175777_g81724637708389_cont_9to1_m_1123_16_alg».proof.Proof.Gen.KernelIdeal.Skeleton
import proofs.«175777_g81724637708389_cont_9to1_m_1123_16_alg».proof.Proof.EulerLaw
import Idealize.ShloMosaic.Lib.ValueIdx
import Idealize.ShloMosaic.PureOps.Ideal.Laws

noncomputable section

namespace Cert.KernelIdeal.KernelValue

open Cert.KernelIdeal Cert.KernelIdeal.Gen Idealize.ShloMosaic Idealize.ShloMosaic.ValueIdx

/-! ### The aggregation `a · x`: rows of the left operand, columns of the right -/

theorem lhs_agg_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhs_agg_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhs_agg_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhs_agg_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The aggregation into a zero accumulator, at `(p, q)`: the sum over the 10000 nodes. -/
theorem agg_at (a : FVec Ideal S400x10000 .bf16) (b : FVec Ideal S10000x128 .bf16) (p : Fin 400) (q : Fin 128) :
    matmul dot_S400x10000_S10000x128_S400x128_1_0_0_1_n_n none a b (constant S400x128 .f32 0x00000000#32) (ix2 p q)
      = ∑ k : Fin 10000, a (ix2 p k) * b (ix2 k q) := by
  simp only [matmul]
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p q) ((contrEquiv1 dot_S400x10000_S10000x128_S400x128_1_0_0_1_n_n 10000 rfl rfl).symm k) = ix2 p k := funext fun a => Fin.ext (by
    match a with
    | ⟨0, _⟩ => exact lhs_agg_0 _ _
    | ⟨1, _⟩ => exact (lhs_agg_1 _ _).trans hk)
  have er : dot_S400x10000_S10000x128_S400x128_1_0_0_1_n_n.rhsIdx (ix2 p q) ((contrEquiv1 dot_S400x10000_S10000x128_S400x128_1_0_0_1_n_n 10000 rfl rfl).symm k) = ix2 k q := funext fun a => Fin.ext (by
    match a with
    | ⟨0, _⟩ => exact (rhs_agg_0 _ _).trans hk
    | ⟨1, _⟩ => exact rhs_agg_1 _ _)
  rw [el, er]

/-! ### The product with the transposed weight: both operands contract their second axis -/

theorem lhs_mix_0 (i : S400x128.Idx) (q : dot_S400x128_S128x128_S400x128_1_1_0_0_n_n.contr.Idx) :
    (dot_S400x128_S128x128_S400x128_1_1_0_0_n_n.lhsIdx i q 0).val = (i 0).val := by
  unfold DotDims.lhsIdx
  rw [dif_neg (show ¬(0 : Fin S400x128.rank) ∈ dot_S400x128_S128x128_S400x128_1_1_0_0_n_n.lhsBatch by decide), dif_pos (show (0 : Fin S400x128.rank) ∈ dot_S400x128_S128x128_S400x128_1_1_0_0_n_n.lhsNonContracting by decide)]
  rfl
theorem lhs_mix_1 (i : S400x128.Idx) (q : dot_S400x128_S128x128_S400x128_1_1_0_0_n_n.contr.Idx) :
    (dot_S400x128_S128x128_S400x128_1_1_0_0_n_n.lhsIdx i q 1).val = (q ⟨0, by decide⟩).val :=
  dot_S400x128_S128x128_S400x128_1_1_0_0_n_n.lhsIdx_val_of_single rfl i q
theorem rhs_mix_0 (i : S400x128.Idx) (q : dot_S400x128_S128x128_S400x128_1_1_0_0_n_n.contr.Idx) :
    (dot_S400x128_S128x128_S400x128_1_1_0_0_n_n.rhsIdx i q 0).val = (i 1).val := by
  unfold DotDims.rhsIdx
  rw [dif_neg (show ¬(0 : Fin S128x128.rank) ∈ dot_S400x128_S128x128_S400x128_1_1_0_0_n_n.rhsBatch by decide), dif_pos (show (0 : Fin S128x128.rank) ∈ dot_S400x128_S128x128_S400x128_1_1_0_0_n_n.rhsNonContracting by decide)]
  rfl
theorem rhs_mix_1 (i : S400x128.Idx) (q : dot_S400x128_S128x128_S400x128_1_1_0_0_n_n.contr.Idx) :
    (dot_S400x128_S128x128_S400x128_1_1_0_0_n_n.rhsIdx i q 1).val = (q ⟨0, by decide⟩).val :=
  dot_S400x128_S128x128_S400x128_1_1_0_0_n_n.rhsIdx_val_of_single rfl i q

/-- The product with the transposed weight into a zero accumulator, at `(p, q)`: the sum over the 128 features of
    `y (p, l) * w (q, l)`. -/
theorem mix_at (y : FVec Ideal S400x128 .f32) (w : FVec Ideal S128x128 .f32) (p : Fin 400) (q : Fin 128) :
    matmul dot_S400x128_S128x128_S400x128_1_1_0_0_n_n none y w (constant S400x128 .f32 0x00000000#32) (ix2 p q)
      = ∑ l : Fin 128, y (ix2 p l) * w (ix2 q l) := by
  simp only [matmul]
  rw [Ideal.matmul_constant_zero_apply, ← Equiv.sum_comp (contrEquiv1 dot_S400x128_S128x128_S400x128_1_1_0_0_n_n 128 rfl rfl).symm]
  refine Finset.sum_congr rfl fun l _ => ?_
  have hl := contrEquiv1_symm_val dot_S400x128_S128x128_S400x128_1_1_0_0_n_n 128 rfl rfl l
  have el : dot_S400x128_S128x128_S400x128_1_1_0_0_n_n.lhsIdx (ix2 p q) ((contrEquiv1 dot_S400x128_S128x128_S400x128_1_1_0_0_n_n 128 rfl rfl).symm l) = ix2 p l := funext fun a => Fin.ext (by
    match a with
    | ⟨0, _⟩ => exact lhs_mix_0 _ _
    | ⟨1, _⟩ => exact (lhs_mix_1 _ _).trans hl)
  have er : dot_S400x128_S128x128_S400x128_1_1_0_0_n_n.rhsIdx (ix2 p q) ((contrEquiv1 dot_S400x128_S128x128_S400x128_1_1_0_0_n_n 128 rfl rfl).symm l) = ix2 q l := funext fun a => Fin.ext (by
    match a with
    | ⟨0, _⟩ => exact rhs_mix_0 _ _
    | ⟨1, _⟩ => exact (rhs_mix_1 _ _).trans hl)
  rw [el, er]

/-! ### The stored value -/

/-- `¾ y + y · Wᵀ` over the aggregation `y = a · x`, at `(p, q)`. -/
theorem body_at (a : FVec Ideal S400x10000 .bf16) (b : FVec Ideal S10000x128 .bf16) (w : FVec Ideal S128x128 .f32)
    (p : Fin 400) (q : Fin 128) :
    addf (mulf (broadcast S400x128 (Scalar.ofBits (F := Ideal) .f32 0x3F400000#32))
          (matmul dot_S400x10000_S10000x128_S400x128_1_0_0_1_n_n none a b (constant S400x128 .f32 0x00000000#32)))
        (matmul dot_S400x128_S128x128_S400x128_1_1_0_0_n_n none (matmul dot_S400x10000_S10000x128_S400x128_1_0_0_1_n_n none a b (constant S400x128 .f32 0x00000000#32)) w
          (constant S400x128 .f32 0x00000000#32)) (ix2 p q)
      = ((3 / 4 : ℝ) : EReal) * (∑ k : Fin 10000, a (ix2 p k) * b (ix2 k q))
        + ∑ l : Fin 128, (∑ k : Fin 10000, a (ix2 p k) * b (ix2 k l)) * w (ix2 q l) := by
  rw [addf_apply, mulf_apply, broadcast_apply, mix_at, agg_at]
  simp only [agg_at]
  rw [show (Scalar.ofBits (F := Ideal) .f32 0x3F400000#32 : EReal) = ((3 / 4 : ℝ) : EReal) from
    Cert.EulerLaw.ofBits_three_quarters]

/-- The step's stored value at `(p, q)`, from its three loaded blocks. -/
theorem pay_at (v0 : Vec Ideal S400x10000 .f32) (v2 : Vec Ideal S10000x128 .f32) (v7 : Vec Ideal S128x128 .f32)
    (p : Fin 400) (q : Fin 128) :
    k0_pay1 (F := Ideal) v0 v2 v7 (ix2 p q)
      = ((3 / 4 : ℝ) : EReal) * (∑ k : Fin 10000, v0 (ix2 p k) * v2 (ix2 k q))
        + ∑ l : Fin 128, (∑ k : Fin 10000, v0 (ix2 p k) * v2 (ix2 k l)) * v7 (ix2 q l) :=
  body_at (truncf .bf16 v0 bitsLt_bf16_f32) (truncf .bf16 v2 bitsLt_bf16_f32) v7 p q

end Cert.KernelIdeal.KernelValue

end
-- ==== Proof.KernelArray.lean ====
/-
  The kernel's whole result array, as one function of the three argument arrays.

  The grid has 25 points; point `t` holds rows `400 t … 400 t + 399` of the adjacency, all of the features and all of
  the weight, and writes rows `400 t … 400 t + 399` of the result.  Row `400 t + p` of the result depends only on row
  `400 t + p` of the adjacency, so what point `t` writes is block `t` of the whole-array function
  `ValueAt`: `¾ (adj · x) + (adj · x) · Wᵀ` read at an index.  The 25 row blocks tile the 10000 rows (row `r` lies in
  block `r / 400`), so after the run the result array is that function everywhere.
-/
import proofs.«175777_g81724637708389_cont_9to1_m_1123_16_alg».proof.Proof.Gen.KernelIdeal.Value
import proofs.«175777_g81724637708389_cont_9to1_m_1123_16_alg».proof.Proof.KernelPayload
import Idealize.ShloMosaic.Lib.Pipeline.Value
import Idealize.ShloMosaic.Lib.ValueIdx

noncomputable section

namespace Cert.KernelIdeal.KernelValue

open Cert.KernelIdeal Cert.KernelIdeal.Gen Idealize.ShloMosaic Idealize.ShloMosaic.TcCoe Idealize.SL.Sem
open Idealize.ShloMosaic.ValueIdx
open Idealize.ShloMosaic.Pipeline (Dat)

/-- `¾ (adj · x) + (adj · x) · Wᵀ` at row `r`, column `c`. -/
def valueAt (x : S10000x128.Idx → EReal) (adj : S10000x10000.Idx → EReal) (w : S128x128.Idx → EReal)
    (r : Fin 10000) (c : Fin 128) : EReal :=
  ((3 / 4 : ℝ) : EReal) * (∑ k : Fin 10000, adj (ix2 r k) * x (ix2 k c))
    + ∑ l : Fin 128, (∑ k : Fin 10000, adj (ix2 r k) * x (ix2 k l)) * w (ix2 c l)

/-- The same as a whole array. -/
def ValueAt (x : S10000x128.Idx → EReal) (adj : S10000x10000.Idx → EReal) (w : S128x128.Idx → EReal) :
    S10000x128.Idx → EReal :=
  fun i => valueAt x adj w (i 0) (i 1)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 25 points: the adjacency and the result move down one row block per point, the
    features and the weight stay put. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every one of the 25 row blocks is some point's. -/
theorem idx_onto : ∀ q0 : Fin 25, ∃ t : Fin cfg0.N, win0_3.index t = ![q0.val, 0] :=
  (by decide +kernel : ∀ q0 : Fin 25, ∃ t : Fin grid0.N, win0_3.index t = ![q0.val, 0])

/-- WHAT POINT `t` WRITES BACK is block `t` of the whole-array function of the arguments. -/
theorem flushed_eq (c : Dev nD) (t : Fin cfg0.N) :
    (dats m 0 c).flushed 3 t
      = ((cfg0.win 3).blk t).view.read (Elt Ideal) (ValueAt (V m c main_arg0) (V m c main_arg1) (V m c main_arg2)) := by
  rw [Cert.KernelIdeal.Value.flushed3]
  unfold out0_3
  rw [View.canon_unit_zero hz]
  simp only [View.ld_unit_zero (S := S400x10000) hz, View.ld_unit_zero (S := S10000x128) hz,
    View.ld_unit_zero (S := S128x128) hz]
  obtain ⟨e00, e01, e10, e11, e20, e21, e30, e31⟩ := idx_facts t
  funext j
  obtain ⟨p, q, rfl⟩ : ∃ (p : Fin 400) (q : Fin 128), j = ix2 p q := ⟨j 0, j 1, eq_ix2 j⟩
  have ht : t.val < 25 := t.isLt
  -- the three blocks read where the result's block says
  have hadj : ∀ k : Fin 10000, iblk m c 0 t (ix2 p k)
      = V m c main_arg1 (ix2 ((((cfg0.win 3).blk t).view.emb (ix2 p q)) 0) k) := fun k => by
    show V m c main_arg1 (((cfg0.win 0).blk t).view.emb (ix2 p k)) = _
    refine congrArg (V m c main_arg1) (funext fun a => Fin.ext ?_)
    match a with
    | ⟨0, _⟩ => show win0_0.index t (0 : Fin 2) * 400 + 1 * p.val = win0_3.index t (0 : Fin 2) * 400 + 1 * p.val; omega
    | ⟨1, _⟩ => show win0_0.index t (1 : Fin 2) * 10000 + 1 * k.val = k.val; omega
  have hx : ∀ (k : Fin 10000) (l : Fin 128), iblk m c 1 t (ix2 k l) = V m c main_arg0 (ix2 k l) := fun k l => by
    show V m c main_arg0 (((cfg0.win 1).blk t).view.emb (ix2 k l)) = _
    refine congrArg (V m c main_arg0) (funext fun a => Fin.ext ?_)
    match a with
    | ⟨0, _⟩ => show win0_1.index t (0 : Fin 2) * 10000 + 1 * k.val = k.val; omega
    | ⟨1, _⟩ => show win0_1.index t (1 : Fin 2) * 128 + 1 * l.val = l.val; omega
  have hw : ∀ (a b : Fin 128), iblk m c 2 t (ix2 a b) = V m c main_arg2 (ix2 a b) := fun a b => by
    show V m c main_arg2 (((cfg0.win 2).blk t).view.emb (ix2 a b)) = _
    refine congrArg (V m c main_arg2) (funext fun d => Fin.ext ?_)
    match d with
    | ⟨0, _⟩ => show win0_2.index t (0 : Fin 2) * 128 + 1 * a.val = a.val; omega
    | ⟨1, _⟩ => show win0_2.index t (1 : Fin 2) * 128 + 1 * b.val = b.val; omega
  have hcol : (((cfg0.win 3).blk t).view.emb (ix2 p q)) 1 = q := Fin.ext (by
    show win0_3.index t (1 : Fin 2) * 128 + 1 * q.val = q.val; omega)
  show k0_pay1 (F := Ideal) (iblk m c 0 t) (iblk m c 1 t) (iblk m c 2 t) (ix2 p q)
      = valueAt (V m c main_arg0) (V m c main_arg1) (V m c main_arg2)
          ((((cfg0.win 3).blk t).view.emb (ix2 p q)) 0) ((((cfg0.win 3).blk t).view.emb (ix2 p q)) 1)
  refine (pay_at (iblk m c 0 t) (iblk m c 1 t) (iblk m c 2 t) p q).trans ?_
  rw [hcol]
  unfold valueAt
  simp only [hadj, hx, hw]

/-- An index of the result array is in point `t`'s block iff each coordinate is in the block's range. -/
theorem mem_blk (t : Fin cfg0.N) (i : S10000x128.Idx) :
    i ∈ ((cfg0.win 3).blk t).view.set ↔ ∀ a : Fin 2, win0_3.index t a * S400x128.size a ≤ (i a).val ∧ (i a).val < win0_3.index t a * S400x128.size a + S400x128.size a := by
  show i ∈ ((View.whole main_v0).slice (win0_3.rect t)).set ↔ _
  rw [View.set_slice_whole, Rect.mem_set_unit]
  exact Iff.rfl

/-- The 25 row blocks cover the result array: row `r` lies in block `r / 400`. -/
theorem cover (i : S10000x128.Idx) :
    ∃ t : Fin cfg0.N, (cfg0.win 3).flush t = true ∧ i ∈ ((cfg0.win 3).blk t).view.set := by
  have hi0 : (i 0).val < 10000 := (i 0).isLt
  have hi1 : (i 1).val < 128 := (i 1).isLt
  obtain ⟨t, ht⟩ := idx_onto ⟨(i 0).val / 400, by omega⟩
  have q0 : win0_3.index t (0 : Fin 2) = (i 0).val / 400 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 400 ≤ (i 0).val ∧ (i 0).val < win0_3.index t (0 : Fin 2) * 400 + 400; omega
  | ⟨1, _⟩ => show win0_3.index t (1 : Fin 2) * 128 ≤ (i 1).val ∧ (i 1).val < win0_3.index t (1 : Fin 2) * 128 + 128; omega

/-- THE RESULT ARRAY after the run is the whole-array function of the arguments. -/
theorem final (c : Dev nD) :
    (dats m 0 c).arrAt 3 cfg0.N
      = ValueAt (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run: the result at the whole-array function of the arguments, the arguments unchanged. -/
theorem run : θ_run defs (onTc (τ := τ) (main (F := Ideal))) ⟨m, fun _ => 0, ρ⟩ fun r => ∀ c : Dev nD,
      r.2.mem ((c : Thread nD τ).loc main_v0)
        = ValueAt (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.KernelValue

end
-- ==== Proof.lean ====
/-
  The certificate of the fused graph-convolution kernel against its reference.

  Both programs, read at the ideal values, compute from the features `x`, the adjacency `adj` and the weight `W`
  the array whose entry `(r, c)` is `¾ ∑ k, adj (r, k) x (k, c) + ∑ l, (∑ k, adj (r, k) x (k, l)) W (c, l)`.
  The kernel computes it in that form, 400 rows per grid point (Proof/KernelPayload.lean, Proof/KernelArray.lean).
  The reference takes two explicit Euler half-steps of `d[q, p]/dt = [p, -q]` from `[x, x · Wᵀ]` and aggregates the
  `q` half with the adjacency (Proof/RefValue.lean); the two agree by distributivity and an exchange of two finite
  sums (Proof/EulerLaw.lean), which is where the precondition — every entry is a real number, Proof/FiniteArgs.lean —
  is used.  The ideal pass rewrote nothing, so the idealized kernel is the kernel's own text.
-/
import proofs.«175777_g81724637708389_cont_9to1_m_1123_16_alg».proof.Defs
import proofs.«175777_g81724637708389_cont_9to1_m_1123_16_alg».proof.Proof.Gen.Kernel
import proofs.«175777_g81724637708389_cont_9to1_m_1123_16_alg».proof.Proof.Gen.Kernel.Skeleton
import proofs.«175777_g81724637708389_cont_9to1_m_1123_16_alg».proof.Proof.Gen.Kernel.Launch
import proofs.«175777_g81724637708389_cont_9to1_m_1123_16_alg».proof.Proof.Gen.Kernel.Points
import proofs.«175777_g81724637708389_cont_9to1_m_1123_16_alg».proof.Proof.Gen.Kernel.Frame
import proofs.«175777_g81724637708389_cont_9to1_m_1123_16_alg».proof.Proof.Gen.KernelIdeal
import proofs.«175777_g81724637708389_cont_9to1_m_1123_16_alg».proof.Proof.Gen.KernelIdeal.Skeleton
import proofs.«175777_g81724637708389_cont_9to1_m_1123_16_alg».proof.Proof.Gen.KernelIdeal.Launch
import proofs.«175777_g81724637708389_cont_9to1_m_1123_16_alg».proof.Proof.Gen.KernelIdeal.Points
import proofs.«175777_g81724637708389_cont_9to1_m_1123_16_alg».proof.Proof.Gen.KernelIdeal.Frame
import proofs.«175777_g81724637708389_cont_9to1_m_1123_16_alg».proof.Proof.Gen.ReferenceIdeal
import proofs.«175777_g81724637708389_cont_9to1_m_1123_16_alg».proof.Proof.Gen.Pre_finite_inputs
import proofs.«175777_g81724637708389_cont_9to1_m_1123_16_alg».proof.Proof.Gen.KernelIdeal.Value
import proofs.«175777_g81724637708389_cont_9to1_m_1123_16_alg».proof.Proof.Gen.ReferenceIdeal.Run
import proofs.«175777_g81724637708389_cont_9to1_m_1123_16_alg».proof.Proof.Gen.ReferenceIdeal.Read
import proofs.«175777_g81724637708389_cont_9to1_m_1123_16_alg».proof.Proof.EulerLaw
import proofs.«175777_g81724637708389_cont_9to1_m_1123_16_alg».proof.Proof.FiniteArgs
import proofs.«175777_g81724637708389_cont_9to1_m_1123_16_alg».proof.Proof.RefValue
import proofs.«175777_g81724637708389_cont_9to1_m_1123_16_alg».proof.Proof.KernelPayload
import proofs.«175777_g81724637708389_cont_9to1_m_1123_16_alg».proof.Proof.KernelArray
import Idealize.ShloMosaic.Adequacy
import Idealize.ShloMosaic.Init

noncomputable section

namespace Cert.Proof

open Idealize.ShloMosaic Idealize.SL.Sem Idealize.ShloMosaic.ValueIdx

/-- For arrays of real numbers the reference's result is the kernel's whole-array function: entry by entry, the
    aggregated double Euler step against the aggregation followed by `¾ · + · Wᵀ`. -/
theorem result_eq (x : Cert.ReferenceIdeal.S10000x128.Idx → EReal) (adj : Cert.ReferenceIdeal.S10000x10000.Idx → EReal)
    (w : Cert.ReferenceIdeal.S128x128.Idx → EReal)
    (hx : ∀ i, ∃ r : ℝ, x i = r) (ha : ∀ i, ∃ r : ℝ, adj i = r) (hw : ∀ i, ∃ r : ℝ, w i = r) :
    Cert.ReferenceIdeal.Read.val_main_v18 (F := Ideal) x adj w = Cert.KernelIdeal.KernelValue.ValueAt x adj w := by
  funext i
  obtain ⟨r, c, rfl⟩ : ∃ (r : Fin 10000) (c : Fin 128), i = ix2 r c := ⟨i 0, i 1, eq_ix2 i⟩
  rw [Cert.ReferenceIdeal.RefValue.result_at]
  show _ = Cert.KernelIdeal.KernelValue.valueAt x adj w r c
  unfold Cert.KernelIdeal.KernelValue.valueAt
  exact (Cert.EulerLaw.ereal_law (fun k : Fin 10000 => adj (ix2 r k)) (fun (k : Fin 10000) (l : Fin 128) => x (ix2 k l))
    (fun l : Fin 128 => w (ix2 c l)) c (fun k => ha _) (fun k l => hx _) (fun l => hw _)).symm

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two runs side by side: the kernel's result array is the whole-array function of its arguments, the
    reference's is its composed term of arguments that agree with them and are real by the precondition. -/
theorem algebraic : Cert.algebraic_KernelIdeal_ReferenceIdeal := by
  intro m ρ m' ρ' hpre hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, (hagree c).1, (hagree c).2.1, (hagree c).2.2]
  obtain ⟨hx, ha, hw⟩ := Cert.FiniteArgs.real_entries _ _ _ (hpre c)
  exact result_eq _ _ _ hx ha hw

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
